-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S16x512x1 : Shape := ⟨3, ![16, 512, 1]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S16x512x1 : S_.BroadcastsInDim S16x512x1 (![] : Fin 0 → Fin S16x512x1.rank)
  reducesTo_S16x512x1_S_d0_1_2 : S16x512x1.ReducesTo [0, 1, 2] S_

variable [Facts]

def fn {F : FTy → Type} [FloatOps F] (main_arg0 : FVec F S16x512x512 .f32) (main_arg1 : FVec F S16x512x1 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S16x512x1 .f32 := Host.absf main_arg1
  let main_cst_0 : FVec F S_ .f32 := constant S_ .f32 0x7F800000#32
  let main_v5 : FVec F S16x512x1 .f32 := broadcastInDim S16x512x1 ![] bcast_S_S16x512x1 main_cst_0
  let main_v6 : IVec S16x512x1 1 := cmpf .olt main_v4 main_v5
  let main_c_1 : IVec S_ 1 := constantI S_ 1 1#1
  let main_v7 : IVec S_ 1 := (fun x v => Host.reduce IntOp.andi x v reducesTo_S16x512x1_S_d0_1_2 h_S_) main_v6 main_c_1
  let main_v8 : IVec S_ 1 := andi main_v3 main_v7
  main_v8
-- ==== Kernel.lean ====
abbrev S16x512x512 : Shape := ⟨3, ![16, 512, 512]⟩
abbrev S16x512x1 : Shape := ⟨3, ![16, 512, 1]⟩
abbrev S16x512 : Shape := ⟨2, ![16, 512]⟩
abbrev S_ : Shape := ⟨0, ![]⟩
abbrev S16x1x512 : Shape := ⟨3, ![16, 1, 512]⟩
abbrev S16x2048x512 : Shape := ⟨3, ![16, 2048, 512]⟩
abbrev S1x1x512 : Shape := ⟨3, ![1, 1, 512]⟩
abbrev S1x512x512 : Shape := ⟨3, ![1, 512, 512]⟩
abbrev S1x512 : Shape := ⟨2, ![1, 512]⟩
abbrev S512x1 : Shape := ⟨2, ![512, 1]⟩
abbrev S512x512 : Shape := ⟨2, ![512, 512]⟩

abbrev nBuf : Space → Nat
  | .hbm => 23
  | .vmem => 8
  | .smem => 0
  | _ => 0

abbrev bufTy : (tb : Table) → Fin (tcTables nBuf tb) → BufTy
  | .hbm, ⟨0, _⟩ => ⟨S16x512x512, .f32⟩
  | .hbm, ⟨1, _⟩ => ⟨S16x512x1, .f32⟩
  | .hbm, ⟨2, _⟩ => ⟨S16x512, .f32⟩
  | .hbm, ⟨3, _⟩ => ⟨S_, .f32⟩
  | .hbm, ⟨4, _⟩ => ⟨S16x512, .f32⟩
  | .hbm, ⟨5, _⟩ => ⟨S16x512, .i1⟩
  | .hbm, ⟨6, _⟩ => ⟨S_, .f32⟩
  | .hbm, ⟨7, _⟩ => ⟨S16x512, .f32⟩
  | .hbm, ⟨8, _⟩ => ⟨S16x512, .f32⟩
  | .hbm, ⟨9, _⟩ => ⟨S_, .f32⟩
  | .hbm, ⟨10, _⟩ => ⟨S16x512, .f32⟩
  | .hbm, ⟨11, _⟩ => ⟨S16x512, .f32⟩
  | .hbm, ⟨12, _⟩ => ⟨S16x512, .f32⟩
  | .hbm, ⟨13, _⟩ => ⟨S16x512, .i32⟩
  | .hbm, ⟨14, _⟩ => ⟨S16x512, .i32⟩
  | .hbm, ⟨15, _⟩ => ⟨S16x512, .i32⟩
  | .hbm, ⟨16, _⟩ => ⟨S_, .i32⟩
  | .hbm, ⟨17, _⟩ => ⟨S_, .i32⟩
  | .hbm, ⟨18, _⟩ => ⟨S16x512, .i32⟩
  | .hbm, ⟨19, _⟩ => ⟨S16x512, .i32⟩
  | .hbm, ⟨20, _⟩ => ⟨S16x1x512, .i32⟩
  | .hbm, ⟨21, _⟩ => ⟨S16x1x512, .i32⟩
  | .hbm, ⟨22, _⟩ => ⟨S16x2048x512, .f32⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S1x1x512, .i32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x512x1_S16x512 : S16x512x1.ShapeCasts S16x512
  bcast_S_S16x512 : S_.BroadcastsInDim S16x512 (![] : Fin 0 → Fin S16x512.rank)
  natLt_1_32 : 1 < 32
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  shapeCasts_S16x512_S16x1x512 : S16x512.ShapeCasts S16x1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  iota_S512x1_d0_w32 : S512x1.Iotas .tc 32 [0]
  broadcasts_S512x1_S512x512 : S512x1.Broadcasts S512x512
  broadcasts_S1x512_S512x512 : S1x512.Broadcasts S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S16x1x512.size a
  hwx0_0 : ∀ i : grid0.Coords, EltTy.bits .i32 = 32 ∨ (Rect.block (s := S16x1x512) S1x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .i32 = 32 ∨ (Rect.block (s := S16x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x512x512.size a
  hwx0_2 : ∀ i : grid0.Coords, EltTy.bits .f32 = 32 ∨ (Rect.block (s := S16x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x2048x512.size a
  hwx0_3 : ∀ i : grid0.Coords, EltTy.bits .f32 = 32 ∨ (Rect.block (s := S16x2048x512) S1x512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v13) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x512 : Shape := ⟨3, ![16, 512, 512]⟩
abbrev S16x512x1 : Shape := ⟨3, ![16, 512, 1]⟩
abbrev S16x512 : Shape := ⟨2, ![16, 512]⟩
abbrev S_ : Shape := ⟨0, ![]⟩
abbrev S2048 : Shape := ⟨1, ![2048]⟩
abbrev S1x2048x1 : Shape := ⟨3, ![1, 2048, 1]⟩
abbrev S16x1x512 : Shape := ⟨3, ![16, 1, 512]⟩
abbrev S16x2048x512 : Shape := ⟨3, ![16, 2048, 512]⟩

abbrev nBuf : Space → Nat
  | .hbm => 34
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x512x1, .f32⟩
  | .hbm, ⟨2, _⟩ => ⟨S16x512, .f32⟩
  | .hbm, ⟨3, _⟩ => ⟨S_, .f32⟩
  | .hbm, ⟨4, _⟩ => ⟨S16x512, .f32⟩
  | .hbm, ⟨5, _⟩ => ⟨S16x512, .i1⟩
  | .hbm, ⟨6, _⟩ => ⟨S_, .f32⟩
  | .hbm, ⟨7, _⟩ => ⟨S16x512, .f32⟩
  | .hbm, ⟨8, _⟩ => ⟨S16x512, .f32⟩
  | .hbm, ⟨9, _⟩ => ⟨S_, .f32⟩
  | .hbm, ⟨10, _⟩ => ⟨S16x512, .f32⟩
  | .hbm, ⟨11, _⟩ => ⟨S16x512, .f32⟩
  | .hbm, ⟨12, _⟩ => ⟨S16x512, .f32⟩
  | .hbm, ⟨13, _⟩ => ⟨S16x512, .i32⟩
  | .hbm, ⟨14, _⟩ => ⟨S16x512, .i32⟩
  | .hbm, ⟨15, _⟩ => ⟨S16x512, .i32⟩
  | .hbm, ⟨16, _⟩ => ⟨S_, .i32⟩
  | .hbm, ⟨17, _⟩ => ⟨S_, .i32⟩
  | .hbm, ⟨18, _⟩ => ⟨S16x512, .i32⟩
  | .hbm, ⟨19, _⟩ => ⟨S16x512, .i32⟩
  | .hbm, ⟨20, _⟩ => ⟨S2048, .i32⟩
  | .hbm, ⟨21, _⟩ => ⟨S1x2048x1, .i32⟩
  | .hbm, ⟨22, _⟩ => ⟨S16x1x512, .i32⟩
  | .hbm, ⟨23, _⟩ => ⟨S16x2048x512, .i32⟩
  | .hbm, ⟨24, _⟩ => ⟨S16x2048x512, .i32⟩
  | .hbm, ⟨25, _⟩ => ⟨S16x2048x512, .i1⟩
  | .hbm, ⟨26, _⟩ => ⟨S1x2048x1, .i32⟩
  | .hbm, ⟨27, _⟩ => ⟨S16x1x512, .i32⟩
  | .hbm, ⟨28, _⟩ => ⟨S16x2048x512, .i32⟩
  | .hbm, ⟨29, _⟩ => ⟨S16x2048x512, .i32⟩
  | .hbm, ⟨30, _⟩ => ⟨S16x2048x512, .i1⟩
  | .hbm, ⟨31, _⟩ => ⟨S16x2048x512, .i1⟩
  | .hbm, ⟨32, _⟩ => ⟨S16x2048x512, .f32⟩
  | .hbm, ⟨33, _⟩ => ⟨S16x2048x512, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S16x512x1_S16x512 : S16x512x1.ShapeCasts S16x512
  bcast_S_S16x512 : S_.BroadcastsInDim S16x512 (![] : Fin 0 → Fin S16x512.rank)
  natLt_1_32 : 1 < 32
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S2048_S1x2048x1_1 : S2048.BroadcastsInDim S1x2048x1 (![1] : Fin 1 → Fin S1x2048x1.rank)
  bcast_S16x512_S16x1x512_0_2 : S16x512.BroadcastsInDim S16x1x512 (![0, 2] : Fin 2 → Fin S16x1x512.rank)
  bcast_S1x2048x1_S16x2048x512_0_1_2 : S1x2048x1.BroadcastsInDim S16x2048x512 (![0, 1, 2] : Fin 3 → Fin S16x2048x512.rank)
  bcast_S16x1x512_S16x2048x512_0_1_2 : S16x1x512.BroadcastsInDim S16x2048x512 (![0, 1, 2] : Fin 3 → Fin S16x2048x512.rank)
  dot_S16x2048x512_S16x512x512_S16x2048x512_2_1_1_2_0_0_wf : DotDims.WF S16x2048x512 S16x512x512 S16x2048x512 [2] [1] [1] [2] [0] [0]

variable [Facts₀]

def dot_S16x2048x512_S16x512x512_S16x2048x512_2_1_1_2_0_0 : DotDims S16x2048x512 S16x512x512 S16x2048x512 where
  lhsContracting := [2]
  rhsContracting := [1]
  lhsNonContracting := [1]
  rhsNonContracting := [2]
  lhsBatch := [0]
  rhsBatch := [0]
  wf := dot_S16x2048x512_S16x512x512_S16x2048x512_2_1_1_2_0_0_wf

class Facts : Prop extends Facts₀ where

variable [Facts]
-- ==== Proof.Align.lean ====
/-
  The length regulator's mathematics, stated once over literal shapes and free of either program.

  From the log-durations `x[b, n, 0]` both programs compute, on the host and by the same operations, a duration
  `dur[b, n] = ⌊2^x + 1e-4⌋` (as a 32-bit integer) where `x > 0` and `0` elsewhere, its running sum along `n`
  (`ends[b, n] = Σ_{n' ≤ n} dur[b, n']`, a windowed sum of width 512 padded 511 in front) and `starts = ends − dur`.
  Neither side ever looks inside these three: they are carried as the functions `dur`, `ends`, `starts` below.

  Output frame `t` of batch row `b` takes source position `n` with weight `1` when `starts[b, n] ≤ t < ends[b, n]`
  (signed 32-bit comparisons of the word `t`) and `0` otherwise (`weight`), and the result is
  `out[b, t, c] = Σ_n weight(t, starts[b, n], ends[b, n]) · enc[b, n, c]` on the extended reals (`expand`).
-/
import Idealize.ShloMosaic.PureOps.Ideal
import Idealize.ShloMosaic.Lib.ValueIdx

noncomputable section

namespace Cert.Align

open Idealize.ShloMosaic Idealize.ShloMosaic.ValueIdx
open scoped BigOperators

/-- The log-durations as given: one per batch row and source position, with a trailing unit axis. -/
abbrev Slog : Shape := ⟨3, ![16, 512, 1]⟩
/-- One integer per batch row and source position. -/
abbrev Spos : Shape := ⟨2, ![16, 512]⟩
/-- A scalar. -/
abbrev Sscalar : Shape := ⟨0, ![]⟩
/-- The encoder output: batch row, source position, channel. -/
abbrev Senc : Shape := ⟨3, ![16, 512, 512]⟩
/-- The result: batch row, output frame, channel. -/
abbrev Sout : Shape := ⟨3, ![16, 2048, 512]⟩

section Bounds

variable {F : FTy → Type} [FloatOps F]
variable (hsc : Slog.ShapeCasts Spos) (hb : Sscalar.BroadcastsInDim Spos (![] : Fin 0 → Fin Spos.rank)) (hlt : 1 < 32)
  (hb0 : Sscalar.BroadcastsInDim Sscalar (![] : Fin 0 → Fin Sscalar.rank))
  (hrw : Spos.ReduceWindows (![1, 512] : Fin 2 → Nat) ![1, 1] ![0, 511] ![0, 0] Spos) (h0 : 0 < Sscalar.numel)

/-- The duration of each source position: `⌊2^x + 1e-4⌋` converted to a 32-bit integer, times the indicator of `x > 0`. -/
def dur (x : FVec F Slog .f32) : IVec Spos 32 :=
  muli
    (fptosi 32 (Host.floor (addf
      (Host.powf (broadcastInDim Spos ![] hb (constant Sscalar .f32 0x40000000#32)) (shapeCast Spos x hsc))
      (broadcastInDim Spos ![] hb (constant Sscalar .f32 0x38D1B717#32)))))
    (extui 32 (cmpf .ogt (shapeCast Spos x hsc) (broadcastInDim Spos ![] hb (constant Sscalar .f32 0x00000000#32))) hlt)

/-- Where each source position's stretch of output frames ends: the running sum of the durations along the row. -/
def ends (x : FVec F Slog .f32) : IVec Spos 32 :=
  Host.reduceWindow IntOp.addi ![1, 512] ![1, 1] ![0, 511] ![0, 0] (dur hsc hb hlt x)
    (broadcastInDim Sscalar ![] hb0 (constantI Sscalar 32 0#32)) hrw h0

/-- Where it starts: its end less its duration. -/
def starts (x : FVec F Slog .f32) : IVec Spos 32 :=
  subi (ends hsc hb hlt hb0 hrw h0 x) (dur hsc hb hlt x)

end Bounds

/-- The alignment bit of output frame `t` against a stretch `[s, e)`, as a one-bit word: both comparisons are signed
    comparisons of 32-bit words, `t` entering as the word `t mod 2³²`. -/
def alignBit (t : Nat) (s e : BitVec 32) : BitVec 1 :=
  IntOp.andi (IntOp.cmpi .sge (BitVec.ofNat 32 t) s) (IntOp.cmpi .slt (BitVec.ofNat 32 t) e)

/-- The same as an extended real: `1` inside the stretch, `0` outside. -/
def weight (t : Nat) (s e : BitVec 32) : EReal := (((alignBit t s e).toNat : ℝ) : EReal)

/-- The expanded sequence: each output frame is the sum of the encoder rows whose stretch holds it. -/
def expand (enc : FVec Ideal Senc .f32) (st en : IVec Spos 32) : FVec Ideal Sout .f32 :=
  fun j => ∑ n : Fin 512, weight (j 1).val (st (ix2 (j 0) n)) (en (ix2 (j 0) n)) * enc (ix3 (j 0) n (j 2))

/-- A one-bit word widened to 32 bits and read as a signed integer is the bit itself: `0` or `1`. The kernel converts
    its mask this way, the reference converts the bit unsigned; both give the weight. -/
theorem toInt_setWidth_bit (x : BitVec 1) : (x.setWidth 32).toInt = (x.toNat : ℤ) := by
  revert x; decide

/-- The kernel's frame word: the tile's first frame `l · 512` plus the row `r` inside the tile, as 32-bit words, is the
    word of the frame number `l · 512 + r`. -/
theorem frame_word (l r : Nat) :
    IntOp.addi (Scalar.muli (BitVec.ofNat 32 l) 512#32) (BitVec.ofNat 32 r) = BitVec.ofNat 32 (l * 512 + r) := by
  show BitVec.ofNat 32 l * 512#32 + BitVec.ofNat 32 r = _
  rw [BitVec.ofNat_add, BitVec.ofNat_mul]

end Cert.Align

end
-- ==== Proof.KernelHost.lean ====
/-
  What the kernel's launch finds in the two bounds arrays.

  Before the launch the program computes, on the host, the same bounds chain as the reference — durations from the
  log-durations, their running sum `ends`, `starts = ends − durations` — and views each `[16, 512]` result as
  `[16, 1, 512]`, one row per batch row for the pipeline to fetch. So when the region is entered, the array of window 0
  is `starts` of the log-durations argument under that view, and the array of window 1 is `ends`.
-/
import proofs.«153303_j88304527606014_1_alg».proof.Proof.KernelIdealFrameP
import proofs.«153303_j88304527606014_1_alg».proof.Proof.Align
import Idealize.ShloMosaic.Lib.StableHlo.Run

noncomputable section

namespace Cert.KernelIdeal.HostBounds

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ)

/-- Where each source position's stretch starts, from the log-durations (the shared bounds chain). -/
abbrev startsOf (x : FVec F S16x512x1 .f32) : IVec S16x512 32 :=
  Cert.Align.starts shapeCasts_S16x512x1_S16x512 bcast_S_S16x512 natLt_1_32 bcast_S_S_
    reduceWindows_S16x512_S16x512_w1s1p0_0_w512s1p511_0 h_S_ x

/-- Where it ends. -/
abbrev endsOf (x : FVec F S16x512x1 .f32) : IVec S16x512 32 :=
  Cert.Align.ends shapeCasts_S16x512x1_S16x512 bcast_S_S16x512 natLt_1_32 bcast_S_S_
    reduceWindows_S16x512_S16x512_w1s1p0_0_w512s1p511_0 h_S_ x

set_option maxHeartbeats 1000000 in
/-- Window 0's array at region entry: `starts` of the log-durations, viewed `[16, 1, 512]`. -/
theorem V_starts (c : Dev nD) :
    (V m c main_v13 : S16x1x512.Idx → BitVec 32)
      = shapeCast S16x1x512 (startsOf (m ((c : Thread nD τ).loc main_arg1))) shapeCasts_S16x512_S16x1x512 := by
  generalize hR : shapeCast S16x1x512 (startsOf (m ((c : Thread nD τ).loc main_arg1))) shapeCasts_S16x512_S16x1x512 = R
  dsimp only [V]
  simp only [hostOps0, hostOps0_1, hostOps0_2, List.flatten_cons, List.flatten_nil, List.append_nil, List.cons_append,
    List.nil_append]
  after_results_simp
  simp only [TRef.ofBuf, TRef.toBuf, cast_eq]
  rw [← hR]
  rfl

set_option maxHeartbeats 1000000 in
/-- Window 1's array at region entry: `ends` of the log-durations, viewed `[16, 1, 512]`. -/
theorem V_ends (c : Dev nD) :
    (V m c main_v14 : S16x1x512.Idx → BitVec 32)
      = shapeCast S16x1x512 (endsOf (m ((c : Thread nD τ).loc main_arg1))) shapeCasts_S16x512_S16x1x512 := by
  generalize hR : shapeCast S16x1x512 (endsOf (m ((c : Thread nD τ).loc main_arg1))) shapeCasts_S16x512_S16x1x512 = R
  dsimp only [V]
  simp only [hostOps0, hostOps0_1, hostOps0_2, List.flatten_cons, List.flatten_nil, List.append_nil, List.cons_append,
    List.nil_append]
  after_results_simp
  simp only [TRef.ofBuf, TRef.toBuf, cast_eq]
  rw [← hR]
  rfl

end Cert.KernelIdeal.HostBounds

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.LibKeepdims.lean ====
/-
  Two readings at an index that a row reduction with kept dimensions meets, for any element type and any extents.

  A reduction over the columns of an `[a, b]` array leaves one value per row, an `[a]` vector. To use it against the
  `[a, b]` array again (subtract a row's maximum, divide by a row's sum) it is first cast to one column, `[a, 1]`,
  and the column is then repeated across the `b` columns. Read at `(p, q)` the result is the vector's entry `p`,
  whatever `q` is (`column_apply`). And the index that a reduction over axis 1 reads at reduced index `p` and
  coordinate `k` of the dropped axis is `(p, k)` (`lift_axis1`).
-/
import Idealize.ShloMosaic.Lib.Pipeline.Value
import Idealize.ShloMosaic.Lib.ValueIdx
import Idealize.ShloMosaic.PureOps.Reduce

noncomputable section

namespace Idealize.ShloMosaic.Keepdims

open Idealize.ShloMosaic Idealize.ShloMosaic.ValueIdx

variable {α : Type}

/-- An `[a]` vector cast to the column `[a, 1]` reads, at `(p, u)`, its entry `p`, whatever the unit coordinate. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` repeated across `b` columns reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A per-row value with its dimension kept: the `[a]` vector cast to a column and repeated across `b` columns reads,
    at `(p, q)`, the vector's entry `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) := by
  rw [broadcastTo_a1_ab_apply, shapeCast_a_a1_apply]

/-- A reduction of an `[a, b]` array over its columns reads, at row `p` and column coordinate `k`, the entry `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims

end
-- ==== Proof.KernelPayload.lean ====
/-
  The kernel body's stored value, index by index, at the exact instance.

  At grid point `(b, l)` the body holds the two bounds of batch row `b` as rows `[1, 1, 512]` and the encoder block of
  that row, `[1, 512, 512]`. It builds the `512 × 512` alignment tile of the frames `l · 512 + r`, `r < 512`:
  the frame column `l · 512 + iota` spread across the positions, the two bound rows spread down the frames, the two signed
  comparisons, their conjunction widened to 32 bits and converted (signed) to a float — the change to bf16 is the
  identity on exact values —, and multiplies the tile with the encoder block into a zero accumulator. So the stored
  block has at `(·, r, c)` the sum over the positions `n` of the alignment weight of frame `l · 512 + r` against the
  stretch of `n`, times the encoder entry `(n, c)`.
-/
import proofs.«153303_j88304527606014_1_alg».proof.Proof.Gen.KernelIdeal.Skeleton
import proofs.«153303_j88304527606014_1_alg».proof.Proof.Align
import proofs.«153303_j88304527606014_1_alg».proof.Proof.LibPlainMatmul
import proofs.«153303_j88304527606014_1_alg».proof.Proof.LibKeepdims
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The frame column of tile `l` spread across the positions reads, at `(r, q)`, the word of the frame `l · 512 + r`:
    the tile's first frame as a word plus the iota along the rows. -/
theorem frameTile_apply (l : Nat) (r q : Fin 512) :
    broadcastTo S512x512 (addi (broadcast S512x1 (Scalar.muli (BitVec.ofNat 32 l) 512#32))
        (iota .tc S512x1 32 [0] iota_S512x1_d0_w32)) broadcasts_S512x1_S512x512 (ix2 r q)
      = BitVec.ofNat 32 (l * 512 + r.val) := by
  rw [Keepdims.broadcastTo_a1_ab_apply]
  show IntOp.addi (Scalar.muli (BitVec.ofNat 32 l) 512#32) (iota .tc S512x1 32 [0] iota_S512x1_d0_w32 (ix2 r (0 : Fin 1))) = _
  rw [iota_single_apply]
  exact Cert.Align.frame_word l r.val

/-- A bound row `[1, 1, 512]` viewed `[1, 512]` and spread down the frames reads, at `(r, q)`, its entry `q`. -/
theorem boundRow_apply (v : Vec Ideal S1x1x512 .i32) (r q : Fin 512) :
    broadcastTo S512x512 (shapeCast S1x512 v shapeCasts_S1x1x512_S1x512) broadcasts_S1x512_S512x512 (ix2 r q)
      = v (ix3 0 0 q) := by
  rw [broadcastTo_1b_ab_apply, shapeCast_1ab_ab_apply]

/-- The alignment tile at `(r, n)` is the weight of frame `l · 512 + r` against the stretch `[v1[n], v3[n])`: the one-bit
    conjunction widened and read signed is the bit. -/
theorem alignTile_apply (l : Nat) (v1 v3 : Vec Ideal S1x1x512 .i32) (r n : Fin 512) :
    truncf .bf16
        (sitofp (F := Ideal) .f32
          (extui 32
            (andi
              (cmpi .sge
                (broadcastTo S512x512 (addi (broadcast S512x1 (Scalar.muli (BitVec.ofNat 32 l) 512#32))
                  (iota .tc S512x1 32 [0] iota_S512x1_d0_w32)) broadcasts_S512x1_S512x512)
                (broadcastTo S512x512 (shapeCast S1x512 v1 shapeCasts_S1x1x512_S1x512) broadcasts_S1x512_S512x512))
              (cmpi .slt
                (broadcastTo S512x512 (addi (broadcast S512x1 (Scalar.muli (BitVec.ofNat 32 l) 512#32))
                  (iota .tc S512x1 32 [0] iota_S512x1_d0_w32)) broadcasts_S512x1_S512x512)
                (broadcastTo S512x512 (shapeCast S1x512 v3 shapeCasts_S1x1x512_S1x512) broadcasts_S1x512_S512x512)))
            natLt_1_32))
        bitsLt_bf16_f32 (ix2 r n)
      = Cert.Align.weight (l * 512 + r.val) (v1 (ix3 0 0 n)) (v3 (ix3 0 0 n)) := by
  show ((((IntOp.andi
      (IntOp.cmpi .sge
        (broadcastTo S512x512 (addi (broadcast S512x1 (Scalar.muli (BitVec.ofNat 32 l) 512#32))
          (iota .tc S512x1 32 [0] iota_S512x1_d0_w32)) broadcasts_S512x1_S512x512 (ix2 r n))
        (broadcastTo S512x512 (shapeCast S1x512 v1 shapeCasts_S1x1x512_S1x512) broadcasts_S1x512_S512x512 (ix2 r n)))
      (IntOp.cmpi .slt
        (broadcastTo S512x512 (addi (broadcast S512x1 (Scalar.muli (BitVec.ofNat 32 l) 512#32))
          (iota .tc S512x1 32 [0] iota_S512x1_d0_w32)) broadcasts_S512x1_S512x512 (ix2 r n))
        (broadcastTo S512x512 (shapeCast S1x512 v3 shapeCasts_S1x1x512_S1x512) broadcasts_S1x512_S512x512 (ix2 r n)))).setWidth 32).toInt : ℝ) : EReal) = _
  rw [frameTile_apply, boundRow_apply, boundRow_apply, Cert.Align.toInt_setWidth_bit, Int.cast_natCast]
  rfl

/-- The encoder block `[1, 512, 512]` viewed `[512, 512]` reads, at `(n, c)`, its entry `(0, n, c)`; the change of
    float format is the identity. -/
theorem encTile_apply (v18 : Vec Ideal S1x512x512 .f32) (n c : Fin 512) :
    (truncf (F := Ideal) .bf16 (shapeCast S512x512 v18 shapeCasts_S1x512x512_S512x512) bitsLt_bf16_f32 (ix2 n c) : EReal)
      = (v18 (ix3 0 n c) : EReal) := by
  show shapeCast S512x512 v18 shapeCasts_S1x512x512_S512x512 (ix2 n c) = _
  rw [shapeCast_1ab_ab_apply]

/-- THE STORED BLOCK at `(u, r, c)`: the alignment tile's row `r` against the encoder block's column `c`. -/
theorem pay_apply (i : grid0.Coords) (v1 v3 : Vec Ideal S1x1x512 .i32) (v18 : Vec Ideal S1x512x512 .f32)
    (u : Fin 1) (r c : Fin 512) :
    k0_pay1 (F := Ideal) i v1 v3 v18 (ix3 u r c)
      = ∑ n : Fin 512, Cert.Align.weight ((i 1).val * 512 + r.val) (v1 (ix3 0 0 n)) (v3 (ix3 0 0 n)) * v18 (ix3 0 n c) := by
  unfold k0_pay1
  dsimp only
  rw [shapeCast_ab_1ab_apply]
  rw [Cert.PlainMatmul.matmul_zero_apply (M := 512) (K := 512) (N := 512) _ rfl rfl rfl rfl rfl rfl]
  refine Finset.sum_congr rfl fun n _ => ?_
  rw [alignTile_apply, encTile_apply]

end Cert.KernelIdeal.Payload

end
-- ==== Proof.KernelValue.lean ====
/-
  The kernel's result array after the run is the expanded sequence.

  Grid point `t = (b, l)` fetches row `b` of the two bounds arrays, block `b` of the encoder output, and writes back
  block `(b, l)` of the result: frames `l · 512 … l · 512 + 511` of batch row `b`, all channels. What it writes is the
  body's stored value of those blocks (the payload read index by index), which is that block of ONE function of the
  argument arrays — the expanded sequence under the bounds the host chain computed from the log-durations. The 64
  blocks tile the result array, so after the run the array is that function.
-/
import proofs.«153303_j88304527606014_1_alg».proof.Proof.KernelIdealValueP
import proofs.«153303_j88304527606014_1_alg».proof.Proof.KernelHost
import proofs.«153303_j88304527606014_1_alg».proof.Proof.KernelPayload

noncomputable section

namespace Cert.KernelIdeal.HandValue

open Cert.KernelIdeal Cert.KernelIdeal.Gen Cert.KernelIdeal.GenP Cert.KernelIdeal.ValueP Cert.KernelIdeal.HostBounds
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- What the result array ends holding on core `c`: the expanded sequence of the encoder argument under the bounds
    of the log-durations argument. -/
def result (c : Dev nD) : S16x2048x512.Idx → EReal :=
  Cert.Align.expand (m ((c : Thread nD τ).loc main_arg0)) (startsOf (F := Ideal) (m ((c : Thread nD τ).loc main_arg1)))
    (endsOf (F := Ideal) (m ((c : Thread nD τ).loc main_arg1)))

theorem zero_offsets : (![0, 0, 0] : Fin 3 → Nat) = fun _ => 0 := funext fun a => by fin_cases a <;> rfl

/-- The printed index maps over the grid: every input window's block index is `(b, 0, 0)` and the output's is
    `(b, l, 0)` at the point of coordinates `(b, l)`. -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 3) = (grid0.coords t 0).val ∧ win0_3.index t (1 : Fin 3) = (grid0.coords t 1).val
    ∧ win0_3.index t (2 : Fin 3) = 0 :=
  (by decide +kernel : ∀ t : Fin grid0.N, _)

/-- Every block of the result is some point's. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- A `[16, 512]` array viewed `[16, 1, 512]` reads, at `(b, 0, n)`, its entry `(b, n)`. -/
theorem rowView_apply {α : Type} (v : S16x512.Idx → α) (b : Fin 16) (u : Fin 1) (n : Fin 512) :
    shapeCast S16x1x512 v shapeCasts_S16x512_S16x1x512 (ix3 b u n) = v (ix2 b n) :=
  shapeCast_apply v _ _ _ (by
    have hu : u.val = 0 := by omega
    rw [Shape.rowMajor_val_three, Shape.rowMajor_val_two]
    show b.val * 512 + n.val = (b.val * 1 + u.val) * 512 + n.val
    rw [hu, Nat.mul_one, Nat.add_zero])

/-- ONE POINT'S BLOCK, over variables of the literal types: if the three loaded blocks are row `b` of the bounds and block
    `b` of the encoder output, the stored block at `(u, r, q)` is the expanded sequence at frame `tt = l · 512 + r` of row
    `b`, channel `q`. -/
theorem block_eq (i : grid0.Coords) (b : Fin 16) (x0 x1 : Vec Ideal S1x1x512 .i32) (x2 : Vec Ideal S1x512x512 .f32)
    (enc : S16x512x512.Idx → EReal) (st en : IVec S16x512 32)
    (h0 : ∀ n : Fin 512, x0 (ix3 0 0 n) = st (ix2 b n)) (h1 : ∀ n : Fin 512, x1 (ix3 0 0 n) = en (ix2 b n))
    (h2 : ∀ n q : Fin 512, x2 (ix3 0 n q) = enc (ix3 b n q))
    (u : Fin 1) (r q : Fin 512) (tt : Fin 2048) (htt : tt.val = (i 1).val * 512 + r.val) :
    k0_pay1 (F := Ideal) i x0 x1 x2 (ix3 u r q) = Cert.Align.expand enc st en (ix3 b tt q) := by
  rw [Cert.KernelIdeal.Payload.pay_apply]
  show _ = ∑ n : Fin 512, Cert.Align.weight tt.val (st (ix2 b n)) (en (ix2 b n)) * enc (ix3 b n q)
  refine Finset.sum_congr rfl fun n _ => ?_
  rw [h0, h1, h2, htt]

/-- WHAT POINT `t` WRITES BACK is block `t` of `result`. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S1x1x512) zero_offsets, View.ld_unit_zero (S := S1x512x512) zero_offsets]
  obtain ⟨a0, a1, a2, b0, b1, b2, c0, c1, c2, d0, d1, d2⟩ := idx_facts t
  have hb : (grid0.coords t 0).val < 16 := (grid0.coords t 0).isLt
  have hl : (grid0.coords t 1).val < 4 := (grid0.coords t 1).isLt
  funext j
  have hj0 : (j 0).val < 1 := (j 0).isLt
  have hj1 : (j 1).val < 512 := (j 1).isLt
  have hj2 : (j 2).val < 512 := (j 2).isLt
  show k0_pay1 (F := Ideal) (grid0.coords t) (iblk m c 0 t) (iblk m c 1 t) (iblk m c 2 t) j
      = result m c (((cfg0.win 3).blk t).view.emb j)
  have ej : j = ix3 (⟨(j 0).val, hj0⟩ : Fin 1) (⟨(j 1).val, hj1⟩ : Fin 512) (⟨(j 2).val, hj2⟩ : Fin 512) := by
    funext a; apply Fin.ext
    match a with
    | ⟨0, _⟩ => rfl
    | ⟨1, _⟩ => rfl
    | ⟨2, _⟩ => rfl
  have eemb : ((cfg0.win 3).blk t).view.emb j
      = ix3 (⟨(grid0.coords t 0).val, hb⟩ : Fin 16)
          (⟨(grid0.coords t 1).val * 512 + (j 1).val, by omega⟩ : Fin 2048) (⟨(j 2).val, hj2⟩ : Fin 512) := by
    funext a; apply Fin.ext
    match a with
    | ⟨0, _⟩ => show win0_3.index t (0 : Fin 3) * 1 + 1 * (j 0).val = (grid0.coords t 0).val; omega
    | ⟨1, _⟩ => show win0_3.index t (1 : Fin 3) * 512 + 1 * (j 1).val = (grid0.coords t 1).val * 512 + (j 1).val; omega
    | ⟨2, _⟩ => show win0_3.index t (2 : Fin 3) * 512 + 1 * (j 2).val = (j 2).val; omega
  rw [eemb]
  unfold result
  refine (congrArg (k0_pay1 (F := Ideal) (grid0.coords t) (iblk m c 0 t) (iblk m c 1 t) (iblk m c 2 t)) ej).trans ?_
  refine block_eq (grid0.coords t) ⟨(grid0.coords t 0).val, hb⟩ _ _ _ _ _ _ ?_ ?_ ?_ _ _ _ _ rfl
  · intro n
    show V m c main_v13 (((cfg0.win 0).blk t).view.emb (ix3 0 0 n)) = _
    have e : ((cfg0.win 0).blk t).view.emb (ix3 (0 : Fin 1) (0 : Fin 1) n)
        = ix3 (⟨(grid0.coords t 0).val, hb⟩ : Fin 16) (0 : Fin 1) n := by
      funext a; apply Fin.ext
      match a with
      | ⟨0, _⟩ => show win0_0.index t (0 : Fin 3) * 1 + 1 * 0 = (grid0.coords t 0).val; omega
      | ⟨1, _⟩ => show win0_0.index t (1 : Fin 3) * 1 + 1 * 0 = 0; omega
      | ⟨2, _⟩ => show win0_0.index t (2 : Fin 3) * 512 + 1 * n.val = n.val; omega
    rw [e, V_starts, rowView_apply]
  · intro n
    show V m c main_v14 (((cfg0.win 1).blk t).view.emb (ix3 0 0 n)) = _
    have e : ((cfg0.win 1).blk t).view.emb (ix3 (0 : Fin 1) (0 : Fin 1) n)
        = ix3 (⟨(grid0.coords t 0).val, hb⟩ : Fin 16) (0 : Fin 1) n := by
      funext a; apply Fin.ext
      match a with
      | ⟨0, _⟩ => show win0_1.index t (0 : Fin 3) * 1 + 1 * 0 = (grid0.coords t 0).val; omega
      | ⟨1, _⟩ => show win0_1.index t (1 : Fin 3) * 1 + 1 * 0 = 0; omega
      | ⟨2, _⟩ => show win0_1.index t (2 : Fin 3) * 512 + 1 * n.val = n.val; omega
    rw [e, V_ends, rowView_apply]
  · intro n q
    show V m c main_arg0 (((cfg0.win 2).blk t).view.emb (ix3 0 n q)) = _
    have e : ((cfg0.win 2).blk t).view.emb (ix3 (0 : Fin 1) n q)
        = ix3 (⟨(grid0.coords t 0).val, hb⟩ : Fin 16) n q := by
      funext a; apply Fin.ext
      match a with
      | ⟨0, _⟩ => show win0_2.index t (0 : Fin 3) * 1 + 1 * 0 = (grid0.coords t 0).val; omega
      | ⟨1, _⟩ => show win0_2.index t (1 : Fin 3) * 512 + 1 * n.val = n.val; omega
      | ⟨2, _⟩ => show win0_2.index t (2 : Fin 3) * 512 + 1 * q.val = q.val; omega
    rw [e, V_main_arg0]

/-- An index of the result array is in point `t`'s block iff each coordinate is in the block's range on its axis. -/
theorem mem_blk (t : Fin cfg0.N) (i : S16x2048x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v15).slice (win0_3.rect t)).set ↔ _
  rw [View.set_slice_whole, Rect.mem_set_unit]
  exact Iff.rfl

/-- THE COVER: every index of the result array is in the block of the point `(b, t / 512)`. -/
theorem cover (i : S16x2048x512.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE ARRAY after the run is `result`. -/
theorem final (c : Dev nD) : (dats m 0 c).arrAt 3 cfg0.N = result m c :=
  (dats m 0 c).arrAt_eq_of_cover 3 (result m c) (fun t _ => flushed_eq m c t) cover

/-- The frame run re-posted: the result array at the expanded sequence of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.HandValue

end
-- ==== Proof.RefRun.lean ====
/-
  The reference's run, read back.

  The reference is a straight line of 32 host operations once its two outlined functions (the running sum, a function
  that calls a function) are written out at their call: the bounds chain on the log-durations (durations, their running
  sum `ends`, `starts = ends − durations`), then the frame numbers `0 … 2047` and the two bounds spread over
  `[16, 2048, 512]`, the two signed comparisons and their conjunction, the mask converted to a float, and the batched
  product of the mask with the encoder output. Every weakly fair execution ends with the result buffer at that
  composition (`out`) of the two argument arrays and with the arguments as they were.
-/
import proofs.«153303_j88304527606014_1_alg».proof.Proof.Gen.ReferenceIdeal
import proofs.«153303_j88304527606014_1_alg».proof.Proof.Align
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the running sum's three written out where it is called. -/
abbrev ops : List (HloOp τ sig (Elt F)) :=
  [
    StableHlo.reshape main_arg1 main_v0 rfl shapeCasts_S16x512x1_S16x512,
    StableHlo.nullary main_cst (constant S_ .f32 0x00000000#32),
    StableHlo.unary main_cst main_v1 (broadcastInDim S16x512 ![] bcast_S_S16x512 : (⟨S_, .f32⟩ : BufTy).Contents (Elt F) → (⟨S16x512, .f32⟩ : BufTy).Contents (Elt F)),
    StableHlo.binary main_v0 main_v1 main_v2 (cmpf .ogt : (⟨S16x512, .f32⟩ : BufTy).Contents (Elt F) → (⟨S16x512, .f32⟩ : BufTy).Contents (Elt F) → (⟨S16x512, .i1⟩ : BufTy).Contents (Elt F)),
    StableHlo.nullary main_cst_0 (constant S_ .f32 0x40000000#32),
    StableHlo.unary main_cst_0 main_v3 (broadcastInDim S16x512 ![] bcast_S_S16x512 : (⟨S_, .f32⟩ : BufTy).Contents (Elt F) → (⟨S16x512, .f32⟩ : BufTy).Contents (Elt F)),
    StableHlo.binary main_v3 main_v0 main_v4 (Host.powf : (⟨S16x512, .f32⟩ : BufTy).Contents (Elt F) → (⟨S16x512, .f32⟩ : BufTy).Contents (Elt F) → (⟨S16x512, .f32⟩ : BufTy).Contents (Elt F)),
    StableHlo.nullary main_cst_1 (constant S_ .f32 0x38D1B717#32),
    StableHlo.unary main_cst_1 main_v5 (broadcastInDim S16x512 ![] bcast_S_S16x512 : (⟨S_, .f32⟩ : BufTy).Contents (Elt F) → (⟨S16x512, .f32⟩ : BufTy).Contents (Elt F)),
    StableHlo.binary main_v4 main_v5 main_v6 (addf : (⟨S16x512, .f32⟩ : BufTy).Contents (Elt F) → (⟨S16x512, .f32⟩ : BufTy).Contents (Elt F) → (⟨S16x512, .f32⟩ : BufTy).Contents (Elt F)),
    StableHlo.unary main_v6 main_v7 (Host.floor : (⟨S16x512, .f32⟩ : BufTy).Contents (Elt F) → (⟨S16x512, .f32⟩ : BufTy).Contents (Elt F)),
    StableHlo.unary main_v7 main_v8 (fptosi 32 : (⟨S16x512, .f32⟩ : BufTy).Contents (Elt F) → (⟨S16x512, .i32⟩ : BufTy).Contents (Elt F)),
    StableHlo.unary main_v2 main_v9 ((extui 32 · natLt_1_32) : (⟨S16x512, .i1⟩ : BufTy).Contents (Elt F) → (⟨S16x512, .i32⟩ : BufTy).Contents (Elt F)),
    StableHlo.binary main_v8 main_v9 main_v10 (muli : (⟨S16x512, .i32⟩ : BufTy).Contents (Elt F) → (⟨S16x512, .i32⟩ : BufTy).Contents (Elt F) → (⟨S16x512, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v10 : StableHlo.TRef sig ⟨S16x512, .i32⟩) (.of main_call0_call0_v0 : StableHlo.TRef sig ⟨S_, .i32⟩) (.of main_v11 : StableHlo.TRef sig ⟨S16x512, .i32⟩) (fun x v => Host.reduceWindow IntOp.addi ![1, 512] ![1, 1] ![0, 511] ![0, 0] x v reduceWindows_S16x512_S16x512_w1s1p0_0_w512s1p511_0 h_S_),
    StableHlo.binary main_v11 main_v10 main_v12 (subi : (⟨S16x512, .i32⟩ : BufTy).Contents (Elt F) → (⟨S16x512, .i32⟩ : BufTy).Contents (Elt F) → (⟨S16x512, .i32⟩ : BufTy).Contents (Elt F)),
    StableHlo.nullary main_v13 (iotaInDim S2048 32 0),
    StableHlo.unary main_v13 main_v14 (broadcastInDim S1x2048x1 ![1] bcast_S2048_S1x2048x1_1 : (⟨S2048, .i32⟩ : BufTy).Contents (Elt F) → (⟨S1x2048x1, .i32⟩ : BufTy).Contents (Elt F)),
    StableHlo.unary main_v12 main_v15 (broadcastInDim S16x1x512 ![0, 2] bcast_S16x512_S16x1x512_0_2 : (⟨S16x512, .i32⟩ : BufTy).Contents (Elt F) → (⟨S16x1x512, .i32⟩ : BufTy).Contents (Elt F)),
    StableHlo.unary main_v14 main_v16 (broadcastInDim S16x2048x512 ![0, 1, 2] bcast_S1x2048x1_S16x2048x512_0_1_2 : (⟨S1x2048x1, .i32⟩ : BufTy).Contents (Elt F) → (⟨S16x2048x512, .i32⟩ : BufTy).Contents (Elt F)),
    StableHlo.unary main_v15 main_v17 (broadcastInDim S16x2048x512 ![0, 1, 2] bcast_S16x1x512_S16x2048x512_0_1_2 : (⟨S16x1x512, .i32⟩ : BufTy).Contents (Elt F) → (⟨S16x2048x512, .i32⟩ : BufTy).Contents (Elt F)),
    StableHlo.binary main_v16 main_v17 main_v18 (cmpi .sge : (⟨S16x2048x512, .i32⟩ : BufTy).Contents (Elt F) → (⟨S16x2048x512, .i32⟩ : BufTy).Contents (Elt F) → (⟨S16x2048x512, .i1⟩ : BufTy).Contents (Elt F)),
    StableHlo.unary main_v13 main_v19 (broadcastInDim S1x2048x1 ![1] bcast_S2048_S1x2048x1_1 : (⟨S2048, .i32⟩ : BufTy).Contents (Elt F) → (⟨S1x2048x1, .i32⟩ : BufTy).Contents (Elt F)),
    StableHlo.unary main_v11 main_v20 (broadcastInDim S16x1x512 ![0, 2] bcast_S16x512_S16x1x512_0_2 : (⟨S16x512, .i32⟩ : BufTy).Contents (Elt F) → (⟨S16x1x512, .i32⟩ : BufTy).Contents (Elt F)),
    StableHlo.unary main_v19 main_v21 (broadcastInDim S16x2048x512 ![0, 1, 2] bcast_S1x2048x1_S16x2048x512_0_1_2 : (⟨S1x2048x1, .i32⟩ : BufTy).Contents (Elt F) → (⟨S16x2048x512, .i32⟩ : BufTy).Contents (Elt F)),
    StableHlo.unary main_v20 main_v22 (broadcastInDim S16x2048x512 ![0, 1, 2] bcast_S16x1x512_S16x2048x512_0_1_2 : (⟨S16x1x512, .i32⟩ : BufTy).Contents (Elt F) → (⟨S16x2048x512, .i32⟩ : BufTy).Contents (Elt F)),
    StableHlo.binary main_v21 main_v22 main_v23 (cmpi .slt : (⟨S16x2048x512, .i32⟩ : BufTy).Contents (Elt F) → (⟨S16x2048x512, .i32⟩ : BufTy).Contents (Elt F) → (⟨S16x2048x512, .i1⟩ : BufTy).Contents (Elt F)),
    StableHlo.binary main_v18 main_v23 main_v24 (andi : (⟨S16x2048x512, .i1⟩ : BufTy).Contents (Elt F) → (⟨S16x2048x512, .i1⟩ : BufTy).Contents (Elt F) → (⟨S16x2048x512, .i1⟩ : BufTy).Contents (Elt F)),
    StableHlo.unary main_v24 main_v25 (uitofp .f32 : (⟨S16x2048x512, .i1⟩ : BufTy).Contents (Elt F) → (⟨S16x2048x512, .f32⟩ : BufTy).Contents (Elt F)),
    StableHlo.binary main_v25 main_arg0 main_v26 ((fun l r => Host.dotGeneral dot_S16x2048x512_S16x512x512_S16x2048x512_2_1_1_2_0_0 none l r) : (⟨S16x2048x512, .f32⟩ : BufTy).Contents (Elt F) → (⟨S16x512x512, .f32⟩ : BufTy).Contents (Elt F) → (⟨S16x2048x512, .f32⟩ : BufTy).Contents (Elt F)) ]

set_option maxRecDepth 2048 in
/-- @main is that straight line: the two functions unfolded at their calls, the sequencing re-associated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.binary_bufs_sub ..⟩

/-! ## What the line computes -/

/-- Where each source position's stretch starts, from the log-durations (the shared bounds chain). -/
abbrev startsOf (x : FVec F S16x512x1 .f32) : IVec S16x512 32 :=
  Cert.Align.starts shapeCasts_S16x512x1_S16x512 bcast_S_S16x512 natLt_1_32 bcast_S_S_
    reduceWindows_S16x512_S16x512_w1s1p0_0_w512s1p511_0 h_S_ x

/-- Where it ends. -/
abbrev endsOf (x : FVec F S16x512x1 .f32) : IVec S16x512 32 :=
  Cert.Align.ends shapeCasts_S16x512x1_S16x512 bcast_S_S16x512 natLt_1_32 bcast_S_S_
    reduceWindows_S16x512_S16x512_w1s1p0_0_w512s1p511_0 h_S_ x

/-- The frame numbers `0 … 2047` along axis 1, the same for every batch row and source position. -/
def frames : IVec S16x2048x512 32 :=
  broadcastInDim S16x2048x512 ![0, 1, 2] bcast_S1x2048x1_S16x2048x512_0_1_2
    (broadcastInDim S1x2048x1 ![1] bcast_S2048_S1x2048x1_1 (iotaInDim S2048 32 0))

/-- One integer per (batch row, source position), the same for every frame. -/
def spread (v : IVec S16x512 32) : IVec S16x2048x512 32 :=
  broadcastInDim S16x2048x512 ![0, 1, 2] bcast_S16x1x512_S16x2048x512_0_1_2
    (broadcastInDim S16x1x512 ![0, 2] bcast_S16x512_S16x1x512_0_2 v)

/-- The alignment mask `starts ≤ t < ends` as a float array, `[16, 2048, 512]`. -/
def mask (x : FVec F S16x512x1 .f32) : FVec F S16x2048x512 .f32 :=
  uitofp (F := F) .f32 (andi (cmpi .sge frames (spread (startsOf x))) (cmpi .slt frames (spread (endsOf x))))

/-- The reference's result from its two arguments: the batched product of the mask with the encoder output. -/
def out (enc : FVec F S16x512x512 .f32) (x : FVec F S16x512x1 .f32) : FVec F S16x2048x512 .f32 :=
  Host.dotGeneral dot_S16x2048x512_S16x512x512_S16x2048x512_2_1_1_2_0_0 none (mask x) enc

set_option maxHeartbeats 1000000 in
/-- The line's fold at the result buffer is `out` of the argument buffers: each operation's result read at its own
    buffer, every other buffer passed through. -/
theorem out_eq (V : Valuation τ sig (Elt F)) :
    after ops V (main_v26 : DevRef τ sig)
      = out (V (main_arg0 : DevRef τ sig)) (V (main_arg1 : DevRef τ sig)) := by
  generalize hR : out (V (main_arg0 : DevRef τ sig)) (V (main_arg1 : DevRef τ sig)) = R
  after_results_simp
  simp only [TRef.ofBuf, TRef.toBuf, cast_eq]
  rw [← hR]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of the
    reference terminates with its result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.LibBatchDot.lean ====
/-
  A batched matrix product on the host read at an index, on the extended reals.

  For dimension numbers with one batch axis, axis 0 of both operands, that contract the left operand's axis 2
  with the right operand's axis 1 and keep the left operand's axis 1 and the right operand's axis 2 — a stack of
  `B` products of an `[M, K]` array with a `[K, N]` array, the result `[B, M, N]` —, the host's `dot_general` has at
  `(b, a, v)` the entry `Σ_k lhs[b, a, k] · rhs[b, k, v]`, the sum over the `K` contraction positions.
  The library states the entry as a sum over the record's own contraction index set with the operands read at the
  record's index maps; here those maps are evaluated axis by axis for such a record (a batch axis reads the
  result's first coordinate, a kept axis reads the result's coordinate at its place after the batch axis, the
  contracted axis reads the contraction position) and the sum is re-indexed by the one contraction coordinate.
-/
import Idealize.ShloMosaic.PureOps.Ideal.Laws
import Idealize.ShloMosaic.Lib.ValueIdx

noncomputable section

namespace Cert.BatchDot

open Idealize.ShloMosaic Idealize.ShloMosaic.ValueIdx
open scoped BigOperators

variable {B M K N : ℕ} (d : DotDims ⟨3, ![B, M, K]⟩ ⟨3, ![B, K, N]⟩ ⟨3, ![B, M, N]⟩)

/-- The left operand's batch coordinate is the result's first coordinate. -/
theorem lhs_batch (hlb : d.lhsBatch = [0]) (j : (⟨3, ![B, M, N]⟩ : Shape).Idx) (k : d.contr.Idx) :
    (d.lhsIdx j k 0).val = (j 0).val := by
  unfold DotDims.lhsIdx
  rw [dif_pos (by rw [hlb]; exact List.mem_singleton.mpr rfl)]
  simp only [Fin.val_cast]
  have key : ∀ (p : Nat) (hp : p < 3), p = 0 → (j ⟨p, hp⟩).val = (j 0).val := fun p hp h => by subst h; rfl
  exact key _ _ (by simp [hlb])

/-- The left operand's kept coordinate (its axis 1) is the result's second coordinate: it comes right after the one
    batch axis. -/
theorem lhs_row (hlb : d.lhsBatch = [0]) (hln : d.lhsNonContracting = [1]) (j : (⟨3, ![B, M, N]⟩ : Shape).Idx)
    (k : d.contr.Idx) : (d.lhsIdx j k 1).val = (j 1).val := by
  unfold DotDims.lhsIdx
  rw [dif_neg (by rw [hlb]; show (1 : Fin 3) ∉ [(0 : Fin 3)]; decide), dif_pos (by rw [hln]; exact List.mem_singleton.mpr rfl)]
  simp only [Fin.val_cast]
  have key : ∀ (p : Nat) (hp : p < 3), p = 1 → (j ⟨p, hp⟩).val = (j 1).val := fun p hp h => by subst h; rfl
  exact key _ _ (by simp [hlb, hln])

/-- The right operand's batch coordinate is the result's first coordinate. -/
theorem rhs_batch (hrb : d.rhsBatch = [0]) (j : (⟨3, ![B, M, N]⟩ : Shape).Idx) (k : d.contr.Idx) :
    (d.rhsIdx j k 0).val = (j 0).val := by
  unfold DotDims.rhsIdx
  rw [dif_pos (by rw [hrb]; exact List.mem_singleton.mpr rfl)]
  simp only [Fin.val_cast]
  have key : ∀ (p : Nat) (hp : p < 3), p = 0 → (j ⟨p, hp⟩).val = (j 0).val := fun p hp h => by subst h; rfl
  exact key _ _ (by simp [hrb])

/-- The right operand's kept coordinate (its axis 2) is the result's third coordinate: it comes after the batch axis
    and the left operand's one kept axis. -/
theorem rhs_col (hlb : d.lhsBatch = [0]) (hrb : d.rhsBatch = [0]) (hln : d.lhsNonContracting = [1])
    (hrn : d.rhsNonContracting = [2]) (j : (⟨3, ![B, M, N]⟩ : Shape).Idx) (k : d.contr.Idx) :
    (d.rhsIdx j k 2).val = (j 2).val := by
  unfold DotDims.rhsIdx
  rw [dif_neg (by rw [hrb]; show (2 : Fin 3) ∉ [(0 : Fin 3)]; decide), dif_pos (by rw [hrn]; exact List.mem_singleton.mpr rfl)]
  simp only [Fin.val_cast]
  have key : ∀ (p : Nat) (hp : p < 3), p = 2 → (j ⟨p, hp⟩).val = (j 2).val := fun p hp h => by subst h; rfl
  exact key _ _ (by simp [hlb, hln, hrn])

/-- THE ENTRY of the host's batched product at `(b, a, v)`: the sum over `k` of `lhs[b, a, k] · rhs[b, k, v]`. -/
theorem dotGeneral_apply {φ₁ φ₂ : FTy} (hlb : d.lhsBatch = [0]) (hrb : d.rhsBatch = [0]) (hln : d.lhsNonContracting = [1])
    (hrn : d.rhsNonContracting = [2]) (hlc : d.lhsContracting = [2]) (hrc : d.rhsContracting = [1])
    (prec : Option ContractPrecision) (lhs : FVec Ideal ⟨3, ![B, M, K]⟩ φ₁) (rhs : FVec Ideal ⟨3, ![B, K, N]⟩ φ₂)
    (b : Fin B) (a : Fin M) (v : Fin N) :
    Host.dotGeneral d prec lhs rhs (ix3 b a v) = ∑ k : Fin K, lhs (ix3 b a k) * rhs (ix3 b k v) := by
  show FloatOps.dotGeneral d prec .single lhs rhs (ix3 b a v) = _
  rw [Ideal.dotGeneral_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix3 b a v) ((contrEquiv1 d K hr hs).symm k) = ix3 b a k := by
    funext ax; apply Fin.ext
    match ax with
    | ⟨0, _⟩ => exact lhs_batch d hlb _ _
    | ⟨1, _⟩ => exact lhs_row d hlb hln _ _
    | ⟨2, _⟩ => exact (d.lhsIdx_val_of_single hlc _ _).trans (contrEquiv1_symm_val d K hr hs k)
  have e2 : d.rhsIdx (ix3 b a v) ((contrEquiv1 d K hr hs).symm k) = ix3 b k v := by
    funext ax; apply Fin.ext
    match ax with
    | ⟨0, _⟩ => exact rhs_batch d hrb _ _
    | ⟨1, _⟩ => exact (d.rhsIdx_val_of_single hrc _ _).trans (contrEquiv1_symm_val d K hr hs k)
    | ⟨2, _⟩ => exact rhs_col d hlb hrb hln hrn _ _
  rw [e1, e2]

end Cert.BatchDot

end
-- ==== Proof.RefValue.lean ====
/-
  The reference's result, index by index, is the expanded sequence.

  Read at `(b, t, c)`, the batched product of the float mask with the encoder output is the sum over the source
  positions `n` of `mask[b, t, n] · enc[b, n, c]`. The mask there is the unsigned value of the one-bit conjunction of
  `frames ≥ starts` and `frames < ends` (signed), `frames[b, t, n]` being the word of `t` and the two bounds spread over
  the frames being `starts[b, n]` and `ends[b, n]`: that is the alignment weight of frame `t` against position `n`.
-/
import proofs.«153303_j88304527606014_1_alg».proof.Proof.RefRun
import proofs.«153303_j88304527606014_1_alg».proof.Proof.LibBatchDot
import Idealize.ShloMosaic.Lib.Pipeline.Value

noncomputable section

namespace Cert.ReferenceIdeal.HandValue

open Cert.ReferenceIdeal Cert.ReferenceIdeal.Gen Cert.ReferenceIdeal.HandRun
open Idealize.ShloMosaic Idealize.ShloMosaic.ValueIdx
open scoped BigOperators

/-- The frame-number array at `(b, t, n)` is the word of `t`: the iota along its one axis, placed on axis 1 of
    `[1, 2048, 1]` and spread over the batch rows and the source positions. -/
theorem frames_apply (b : Fin 16) (t : Fin 2048) (n : Fin 512) : frames (ix3 b t n) = BitVec.ofNat 32 t.val := by
  unfold frames
  rw [broadcastInDim_apply _ _ _ (ix3 b t n) (ix3 (0 : Fin 1) t (0 : Fin 1)) (fun a => by
        match a with
        | ⟨0, _⟩ => rfl
        | ⟨1, _⟩ => rfl
        | ⟨2, _⟩ => rfl),
      broadcastInDim_apply _ _ _ (ix3 (0 : Fin 1) t (0 : Fin 1)) (ix1 t) (fun a => by
        match a with
        | ⟨0, _⟩ => rfl)]
  rfl

/-- A per-(row, position) integer spread over the frames reads, at `(b, t, n)`, its entry `(b, n)`. -/
theorem spread_apply (v : IVec S16x512 32) (b : Fin 16) (t : Fin 2048) (n : Fin 512) :
    spread v (ix3 b t n) = v (ix2 b n) := by
  unfold spread
  rw [broadcastInDim_apply _ _ _ (ix3 b t n) (ix3 b (0 : Fin 1) n) (fun a => by
        match a with
        | ⟨0, _⟩ => rfl
        | ⟨1, _⟩ => rfl
        | ⟨2, _⟩ => rfl),
      broadcastInDim_apply _ _ _ (ix3 b (0 : Fin 1) n) (ix2 b n) (fun a => by
        match a with
        | ⟨0, _⟩ => rfl
        | ⟨1, _⟩ => rfl)]

/-- The float mask at `(b, t, n)` is the alignment weight of frame `t` against the stretch of position `n` in row `b`. -/
theorem mask_apply (x : FVec Ideal S16x512x1 .f32) (b : Fin 16) (t : Fin 2048) (n : Fin 512) :
    mask (F := Ideal) x (ix3 b t n) = Cert.Align.weight t.val (startsOf x (ix2 b n)) (endsOf x (ix2 b n)) := by
  unfold mask Cert.Align.weight Cert.Align.alignBit
  show (((IntOp.andi (IntOp.cmpi .sge (frames (ix3 b t n)) (spread (startsOf x) (ix3 b t n)))
      (IntOp.cmpi .slt (frames (ix3 b t n)) (spread (endsOf x) (ix3 b t n)))).toNat : ℝ) : EReal) = _
  rw [frames_apply, spread_apply, spread_apply]

/-- THE REFERENCE'S VALUE: its result is the expanded sequence of the encoder output under the bounds computed from the
    log-durations. -/
theorem out_eq_expand (enc : FVec Ideal S16x512x512 .f32) (x : FVec Ideal S16x512x1 .f32) :
    out (F := Ideal) enc x = Cert.Align.expand enc (startsOf x) (endsOf x) := by
  funext j
  obtain ⟨b, t, c, rfl⟩ : ∃ (b : Fin 16) (t : Fin 2048) (c : Fin 512), j = ix3 b t c := ⟨j 0, j 1, j 2, eq_ix3 j⟩
  unfold out
  rw [Cert.BatchDot.dotGeneral_apply (B := 16) (M := 2048) (K := 512) (N := 512) _ rfl rfl rfl rfl rfl rfl]
  show _ = ∑ n : Fin 512, Cert.Align.weight t.val (startsOf x (ix2 b n)) (endsOf x (ix2 b n)) * enc (ix3 b n c)
  exact Finset.sum_congr rfl fun n _ => by rw [mask_apply]

end Cert.ReferenceIdeal.HandValue

end
-- ==== Proof.lean ====
/-
  A length regulator: expand an encoder sequence by per-position durations.

  Both programs turn the log-durations `x[b, n]` into integer durations `⌊2^x + 1e-4⌋·[x > 0]`, their running sum `ends`
  along the positions and `starts = ends − durations`, by one and the same chain of host operations (Proof/Align.lean
  carries it as three functions that no module here opens). Output frame `t` of batch row `b` is then the sum of the
  encoder rows `n` whose stretch `[starts[b, n], ends[b, n])` holds `t`:
      out[b, t, c] = Σ_n [starts[b, n] ≤ t < ends[b, n]] · enc[b, n, c].
  The reference builds the `[16, 2048, 512]` mask on the host from an iota and two spread bounds, converts it to a
  float and takes a batched product with the encoder output (Proof/RefRun.lean: its run read back; Proof/RefValue.lean:
  the product read index by index, Proof/LibBatchDot.lean). The kernel's grid is (batch row, tile of 512 frames); each
  point rebuilds its `512 × 512` tile of the mask from the row's two bounds and the tile's frame numbers
  `l · 512 + iota`, converts it through a 32-bit integer, and multiplies it with the row's encoder block into a zero
  accumulator (Proof/KernelPayload.lean); the 64 blocks tile the result (Proof/KernelValue.lean, over the bounds the
  launch finds, Proof/KernelHost.lean). On the extended reals the two are the same sum term by term: `l · 512 + r`
  never leaves the 32-bit range, so the kernel's frame word is the reference's iota word; a one-bit word widened and
  read signed is the bit read unsigned; changes of float format are the identity. No law beyond rewriting equal
  terms is needed, so the finiteness precondition is never opened.

  The frames of the two kernel programs are the generated frame certificates in patched copies (the stored value
  reads the grid position); the reference's frame is its run with the result dropped; nothing was rewritten by the
  idealization, so `preserves` is `True`.
-/
import proofs.«153303_j88304527606014_1_alg».proof.Defs
import proofs.«153303_j88304527606014_1_alg».proof.Proof.Gen.Kernel
import proofs.«153303_j88304527606014_1_alg».proof.Proof.Gen.KernelIdeal
import proofs.«153303_j88304527606014_1_alg».proof.Proof.Gen.ReferenceIdeal
import proofs.«153303_j88304527606014_1_alg».proof.Proof.Gen.Pre_finite_inputs
import proofs.«153303_j88304527606014_1_alg».proof.Proof.KernelFrameP
import proofs.«153303_j88304527606014_1_alg».proof.Proof.KernelIdealFrameP
import proofs.«153303_j88304527606014_1_alg».proof.Proof.KernelValue
import proofs.«153303_j88304527606014_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- On the extended reals both programs end with the expanded sequence of the encoder argument under the bounds of the
    log-durations argument: the kernel's result array block by block, the reference's batched product index by index,
    and the two bounds chains are one function of arguments that agree. -/
theorem algebraic : Cert.algebraic_KernelIdeal_ReferenceIdeal := by
  intro m ρ m' ρ' _ hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandValue.out_eq_expand, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
